-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S160000 : Shape := ⟨1, ![160000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg2 : IVec S160000 32) (main_v30 : IVec S_ 1) (main_v32 : IVec S160000 1) (main_c_12 : IVec S_ 32) : IVec S_ 1 :=
  let main_v33 : IVec S160000 32 := broadcastInDim S160000 ![] bcast_S_S160000 main_c_12
  let main_v34 : IVec S160000 1 := cmpi .slt main_arg2 main_v33
  let main_v35 : IVec S160000 1 := andi main_v32 main_v34
  let main_c_13 : IVec S_ 1 := constantI S_ 1 1#1
  let main_v36 : IVec S_ 1 := (fun x v => Host.reduce IntOp.andi x v reducesTo_S160000_S_d0 h_S_) main_v35 main_c_13
  let main_v37 : IVec S_ 1 := andi main_v30 main_v36
  main_v37

def fn_part1 {F : FTy → Type} [FloatOps F] (main_arg1 : IVec S160000 32) (main_arg2 : IVec S160000 32) (main_arg6 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S160000 32 := broadcastInDim S160000 ![] bcast_S_S160000 main_c_8
  let main_v25 : IVec S160000 1 := cmpi .sge main_arg1 main_v24
  let main_c_9 : IVec S_ 32 := constantI S_ 32 100000#32
  let main_v26 : IVec S160000 32 := broadcastInDim S160000 ![] bcast_S_S160000 main_c_9
  let main_v27 : IVec S160000 1 := cmpi .slt main_arg1 main_v26
  let main_v28 : IVec S160000 1 := andi main_v25 main_v27
  let main_c_10 : IVec S_ 1 := constantI S_ 1 1#1
  let main_v29 : IVec S_ 1 := (fun x v => Host.reduce IntOp.andi x v reducesTo_S160000_S_d0 h_S_) main_v28 main_c_10
  let main_v30 : IVec S_ 1 := andi main_v23 main_v29
  let main_c_11 : IVec S_ 32 := constantI S_ 32 4294867296#32
  let main_v31 : IVec S160000 32 := broadcastInDim S160000 ![] bcast_S_S160000 main_c_11
  let main_v32 : IVec S160000 1 := cmpi .sge main_arg2 main_v31
  let main_c_12 : IVec S_ 32 := constantI S_ 32 100000#32
  fn_part2 (F := F) main_arg2 main_v30 main_v32 main_c_12

def fn {F : FTy → Type} [FloatOps F] (main_arg0 : FVec F S100000x512 .f32) (main_arg1 : IVec S160000 32) (main_arg2 : IVec S160000 32) (main_arg3 : FVec F S1024x512 .f32) (main_arg4 : FVec F S512 .f32) (main_arg5 : FVec F S512x1 .f32) (main_arg6 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg5
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg1 main_arg2 main_arg6 main_v13 main_v16
-- ==== Kernel.lean ====
abbrev S100000x512 : Shape := ⟨2, ![100000, 512]⟩
abbrev S160000 : Shape := ⟨1, ![160000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S160000x1 : Shape := ⟨2, ![160000, 1]⟩
abbrev S1x1 : Shape := ⟨2, ![1, 1]⟩
abbrev S160000x512 : Shape := ⟨2, ![160000, 512]⟩
abbrev S512x512 : Shape := ⟨2, ![512, 512]⟩
abbrev S1x512 : Shape := ⟨2, ![1, 512]⟩
abbrev S1280x512 : Shape := ⟨2, ![1280, 512]⟩
abbrev S1280x1 : Shape := ⟨2, ![1280, 1]⟩
abbrev S1280 : Shape := ⟨1, ![1280]⟩

abbrev nBuf : Space → Nat
  | .hbm => 61
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S160000, .i32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S1, .i32⟩
  | .hbm, ⟨16, _⟩ => ⟨S_, .i32⟩
  | .hbm, ⟨17, _⟩ => ⟨S160000x1, .i32⟩
  | .hbm, ⟨18, _⟩ => ⟨S160000x1, .i1⟩
  | .hbm, ⟨19, _⟩ => ⟨S1x1, .i32⟩
  | .hbm, ⟨20, _⟩ => ⟨S160000x1, .i32⟩
  | .hbm, ⟨21, _⟩ => ⟨S160000x1, .i1⟩
  | .hbm, ⟨22, _⟩ => ⟨S160000x1, .i1⟩
  | .hbm, ⟨23, _⟩ => ⟨S_, .i1⟩
  | .hbm, ⟨24, _⟩ => ⟨S160000, .i1⟩
  | .hbm, ⟨25, _⟩ => ⟨S160000x512, .f32⟩
  | .hbm, ⟨26, _⟩ => ⟨S160000x512, .i1⟩
  | .hbm, ⟨27, _⟩ => ⟨S_, .f32⟩
  | .hbm, ⟨28, _⟩ => ⟨S160000x512, .f32⟩
  | .hbm, ⟨29, _⟩ => ⟨S160000x512, .f32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S1, .i32⟩
  | .hbm, ⟨39, _⟩ => ⟨S_, .i32⟩
  | .hbm, ⟨40, _⟩ => ⟨S160000x1, .i32⟩
  | .hbm, ⟨41, _⟩ => ⟨S160000x1, .i1⟩
  | .hbm, ⟨42, _⟩ => ⟨S1x1, .i32⟩
  | .hbm, ⟨43, _⟩ => ⟨S160000x1, .i32⟩
  | .hbm, ⟨44, _⟩ => ⟨S160000x1, .i1⟩
  | .hbm, ⟨45, _⟩ => ⟨S160000x1, .i1⟩
  | .hbm, ⟨46, _⟩ => ⟨S_, .i1⟩
  | .hbm, ⟨47, _⟩ => ⟨S160000, .i1⟩
  | .hbm, ⟨48, _⟩ => ⟨S160000x512, .f32⟩
  | .hbm, ⟨49, _⟩ => ⟨S160000x512, .i1⟩
  | .hbm, ⟨50, _⟩ => ⟨S_, .f32⟩
  | .hbm, ⟨51, _⟩ => ⟨S160000x512, .f32⟩
  | .hbm, ⟨52, _⟩ => ⟨S160000x512, .f32⟩
  | .hbm, ⟨53, _⟩ => ⟨S512x512, .f32⟩
  | .hbm, ⟨54, _⟩ => ⟨S512x512, .f32⟩
  | .hbm, ⟨55, _⟩ => ⟨S512, .f32⟩
  | .hbm, ⟨56, _⟩ => ⟨S1x512, .f32⟩
  | .hbm, ⟨57, _⟩ => ⟨S1x512, .f32⟩
  | .hbm, ⟨58, _⟩ => ⟨S1x1, .f32⟩
  | .hbm, ⟨59, _⟩ => ⟨S160000x1, .f32⟩
  | .hbm, ⟨60, _⟩ => ⟨S160000, .f32⟩
  | .local _ .vmem, ⟨0, _⟩ => ⟨S1280x512, .f32⟩
  | .local _ .vmem, ⟨1, _⟩ => ⟨S1280x512, .f32⟩
  | .local _ .vmem, ⟨2, _⟩ => ⟨S1280x512, .f32⟩
  | .local _ .vmem, ⟨3, _⟩ => ⟨S1280x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1280x1, .f32⟩
  | .local _ .vmem, ⟨10, _⟩ => ⟨S1280x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1280x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x512_0 : S160000.BroadcastsInDim S160000x512 (![0] : Fin 1 → Fin S160000x512.rank)
  bcast_S_S160000x512 : S_.BroadcastsInDim S160000x512 (![] : Fin 0 → Fin S160000x512.rank)
  slices_S1024x512_S512x512_0_0 : S1024x512.Slices ![0, 0] S512x512
  slices_S1024x512_S512x512_512_0 : S1024x512.Slices ![512, 0] S512x512
  shapeCasts_S512x1_S512 : S512x1.ShapeCasts S512
  shapeCasts_S512_S1x512 : S512.ShapeCasts S1x512
  shapeCasts_S1_S1x1 : S1.ShapeCasts S1x1
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  reduces_S1280x512_S1280 : S1280x512.Reduces [1] S1280
  shapeCasts_S1280_S1280x1 : S1280.ShapeCasts S1280x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1280x1_S1280x1_0_0 : ∀ a, (![0, 0] : Fin 2 → Nat) a + S1280x1.size a ≤ S1280x1.size a
  h_S1280x1 : 0 < S1280x1.numel
  shapeCasts_S160000x1_S160000 : S160000x1.ShapeCasts S160000
  gather_S100000x512_S160000x1_S160000x512_1_0_n_n_0_1_1512_wf : GatherDims.WF S100000x512 S160000x1 S160000x512 [1] [0] [] [0] [] 1 ![1, 512]
  dot_S1280x512_S512x512_S1280x512_1_0_0_1_n_n_wf : DotDims.WF S1280x512 S512x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x512.size a ≤ S160000x512.size a
  hwx0_0 : ∀ i : grid0.Coords, EltTy.bits .f32 = 32 ∨ (Rect.block (s := S160000x512) S1280x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S160000x512.size a
  hwx0_1 : ∀ i : grid0.Coords, EltTy.bits .f32 = 32 ∨ (Rect.block (s := S160000x512) S1280x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1280x1.size a ≤ S160000x1.size a
  hwx0_7 : ∀ i : grid0.Coords, EltTy.bits .f32 = 32 ∨ (Rect.block (s := S160000x1) S1280x1.size (cc0_transform_7 i) (hinb0_7 i)).WholeWords (EltTy.packing .f32)

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf

abbrev win0_0 : Pipeline.Window sig grid0 :=
  Pipeline.Window.ofSpec (Memref.whole main_v0) S1280x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1280x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x512 : Shape := ⟨2, ![100000, 512]⟩
abbrev S160000 : Shape := ⟨1, ![160000]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S160000x1 : Shape := ⟨2, ![160000, 1]⟩
abbrev S160000x512 : Shape := ⟨2, ![160000, 512]⟩
abbrev S160000x1024 : Shape := ⟨2, ![160000, 1024]⟩
abbrev S1x512 : Shape := ⟨2, ![1, 512]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S160000, .i32⟩
  | .hbm, ⟨2, _⟩ => ⟨S160000, .i32⟩
  | .hbm, ⟨3, _⟩ => ⟨S1024x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x512, .f32⟩
  | .hbm, ⟨25, _⟩ => ⟨S160000x1024, .f32⟩
  | .hbm, ⟨26, _⟩ => ⟨S160000x512, .f32⟩
  | .hbm, ⟨27, _⟩ => ⟨S1x512, .f32⟩
  | .hbm, ⟨28, _⟩ => ⟨S160000x512, .f32⟩
  | .hbm, ⟨29, _⟩ => ⟨S160000x512, .f32⟩
  | .hbm, ⟨30, _⟩ => ⟨S_, .f32⟩
  | .hbm, ⟨31, _⟩ => ⟨S160000x512, .f32⟩
  | .hbm, ⟨32, _⟩ => ⟨S160000x512, .f32⟩
  | .hbm, ⟨33, _⟩ => ⟨S160000x1, .f32⟩
  | .hbm, ⟨34, _⟩ => ⟨S1x1, .f32⟩
  | .hbm, ⟨35, _⟩ => ⟨S160000x1, .f32⟩
  | .hbm, ⟨36, _⟩ => ⟨S160000x1, .f32⟩
  | .hbm, ⟨37, _⟩ => ⟨S160000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  concatenates_S160000x512_S160000x512_S160000x1024_d1 : Shape.Concatenates [S160000x512, S160000x512] S160000x1024 1
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  shapeCasts_S160000x1_S160000 : S160000x1.ShapeCasts S160000
  gather_S100000x512_S160000x1_S160000x512_1_0_n_n_0_1_1512_wf : GatherDims.WF S100000x512 S160000x1 S160000x512 [1] [0] [] [0] [] 1 ![1, 512]
  dot_S160000x1024_S1024x512_S160000x512_1_0_0_1_n_n_wf : DotDims.WF S160000x1024 S1024x512 S160000x512 [1] [0] [0] [1] [] []
  dot_S160000x512_S512x1_S160000x1_1_0_0_1_n_n_wf : DotDims.WF S160000x512 S512x1 S160000x1 [1] [0] [0] [1] [] []

variable [Facts₀]

def gather_S100000x512_S160000x1_S160000x512_1_0_n_n_0_1_1512 : GatherDims S100000x512 S160000x1 S160000x512 where
  offsetDims := [1]
  collapsedSliceDims := [0]
  operandBatchingDims := []
  startIndicesBatchingDims := []
  startIndexMap := [0]
  indexVectorDim := 1
  sliceSizes := ![1, 512]
  wf := gather_S100000x512_S160000x1_S160000x512_1_0_n_n_0_1_1512_wf
def dot_S160000x1024_S1024x512_S160000x512_1_0_0_1_n_n : DotDims S160000x1024 S1024x512 S160000x512 where
  lhsContracting := [1]
  rhsContracting := [0]
  lhsNonContracting := [0]
  rhsNonContracting := [1]
  lhsBatch := []
  rhsBatch := []
  wf := dot_S160000x1024_S1024x512_S160000x512_1_0_0_1_n_n_wf
def dot_S160000x512_S512x1_S160000x1_1_0_0_1_n_n : DotDims S160000x512 S512x1 S160000x1 where
  lhsContracting := [1]
  rhsContracting := [0]
  lhsNonContracting := [0]
  rhsNonContracting := [1]
  lhsBatch := []
  rhsBatch := []
  wf := dot_S160000x512_S512x1_S160000x1_1_0_0_1_n_n_wf

class Facts : Prop extends Facts₀ where

variable [Facts]
-- ==== Proof.EdgeScore.lean ====
/-
  The edge score as one function of the two gathered endpoint arrays and the weights, on the extended reals.

  For edge `e` with endpoint rows `gs e` (source) and `gd e` (destination), each of 512 features:
    hidden e j = (sum over k of gs e k * W1 (k, j)) + (sum over k of gd e k * W1 (512 + k, j)) + b1 j,
    score e    = (sum over j of max (hidden e j) 0 * W2 (j, 0)) + b2 0.
  The first weight has 1024 rows; its upper 512 rows meet the source row and its lower 512 the destination
  row, which is what a product of the concatenated row [gs e, gd e] with the whole weight gives: a sum over
  1024 row indices splits into the sum over the first 512 and the sum over the last 512 (`sum_halves`).
  The split uses only that addition on the extended reals is commutative and associative, so it needs no
  finiteness of the entries. The zero under the maximum is kept as the f32 word of zero, the same word on
  both sides, and is never evaluated.
-/
import Idealize.ShloMosaic.PureOps.Ideal
import Idealize.ShloMosaic.Lib.ValueIdx

noncomputable section

open scoped BigOperators

namespace Cert.EdgeScore

open Idealize.ShloMosaic Idealize.ShloMosaic.ValueIdx

/-- Row `k` of the upper half of the [1024, 512] weight. -/
def upper (k : Fin 512) : Fin 1024 := ⟨k.val, by omega⟩
/-- Row `k` of its lower half: row `512 + k` of the whole. -/
def lower (k : Fin 512) : Fin 1024 := ⟨512 + k.val, by omega⟩

/-- A sum over the 1024 rows is the sum over the upper 512 plus the sum over the lower 512. -/
theorem sum_halves (f : Fin 1024 → EReal) :
    ∑ k : Fin 1024, f k = (∑ k : Fin 512, f (upper k)) + ∑ k : Fin 512, f (lower k) := by
  have h := Fin.sum_univ_add (M := EReal) (a := 512) (b := 512) f
  rw [h]
  rfl

variable (gs gd : (⟨2, ![160000, 512]⟩ : Shape).Idx → EReal) (W1 : (⟨2, ![1024, 512]⟩ : Shape).Idx → EReal)
  (b1 : (⟨1, ![512]⟩ : Shape).Idx → EReal) (W2 : (⟨2, ![512, 1]⟩ : Shape).Idx → EReal)
  (b2 : (⟨1, ![1]⟩ : Shape).Idx → EReal)

/-- The hidden layer before the rectifier, at edge `e` and hidden unit `j`. -/
def hidden (e : Fin 160000) (j : Fin 512) : EReal :=
  (∑ k : Fin 512, gs (ix2 e k) * W1 (ix2 (upper k) j)) + (∑ k : Fin 512, gd (ix2 e k) * W1 (ix2 (lower k) j))
    + b1 (ix1 j)

/-- The score of edge `e`: the rectified hidden layer against the second weight's one column, plus its bias. -/
def score (e : Fin 160000) : EReal :=
  (∑ j : Fin 512, max (hidden gs gd W1 b1 e j) (Ideal.ofBits .f32 0x00000000#32) * W2 (ix2 j (0 : Fin 1)))
    + b2 (ix1 (0 : Fin 1))

/-- All scores, as the [160000] result array. -/
def scores : (⟨1, ![160000]⟩ : Shape).Idx → EReal := fun i => score gs gd W1 b1 W2 b2 (i 0)

/-- The same scores kept as a [160000, 1] column, which is how the kernel's region leaves them. -/
def scoreColumn : (⟨2, ![160000, 1]⟩ : Shape).Idx → EReal := fun i => score gs gd W1 b1 W2 b2 (i 0)

end Cert.EdgeScore

end
-- ==== Proof.ReferenceScore.lean ====
/-
  The reference computes the edge scores of `Cert.EdgeScore`.

  Its result is read one operation at a time (the generated read-at-an-index lemmas): the reshape of a
  [160000, 1] column; the column is the product of the rectified hidden layer with the second weight plus
  the second bias; the hidden layer is the product of the concatenated row [source row, destination row]
  with the whole first weight plus the first bias. A column below 512 of the concatenated row is the source
  row's entry, a column 512 + k is the destination row's entry k, so the sum over the 1024 columns is the
  sum over the upper half of the weight against the source row plus the sum over the lower half against the
  destination row (`Cert.EdgeScore.sum_halves`). The two gathered arrays are kept as they are printed:
  nothing here looks inside the gather.
-/
import proofs.«402381_j7919919693879_2_alg».proof.Proof.Gen.ReferenceIdeal.Read
import proofs.«402381_j7919919693879_2_alg».proof.Proof.EdgeScore

noncomputable section

open scoped BigOperators

namespace Cert.ReferenceIdeal.Score

open Cert.ReferenceIdeal Cert.ReferenceIdeal.Gen Cert.ReferenceIdeal.Read Idealize.ShloMosaic
  Idealize.ShloMosaic.ValueIdx Cert.EdgeScore

variable (h : (⟨S100000x512, .f32⟩ : BufTy).Contents (Elt Ideal))
  (src dst : (⟨S160000, .i32⟩ : BufTy).Contents (Elt Ideal))

/-- The concatenated row of edge `e` at a column of the first half is the source row's entry. -/
theorem cat_upper (e : Fin 160000) (k : Fin 512) :
    val_main_v14 (F := Ideal) h src dst (ix2 e (upper k)) = val_main_v6 (F := Ideal) h src (ix2 e k) := by
  unfold val_main_v14
  exact concatenate_pair_apply_left (t := S160000x1024) (s₁ := S160000x512) (s₂ := S160000x512) 1 _ _ _ _ rfl (ix2 e k) (fun b => by
    match b with
    | ⟨0, _⟩ => rfl
    | ⟨1, _⟩ => rfl)

/-- At column `512 + k` it is the destination row's entry `k`. -/
theorem cat_lower (e : Fin 160000) (k : Fin 512) :
    val_main_v14 (F := Ideal) h src dst (ix2 e (lower k)) = val_main_v13 (F := Ideal) h dst (ix2 e k) := by
  unfold val_main_v14
  exact concatenate_pair_apply_right (t := S160000x1024) (s₁ := S160000x512) (s₂ := S160000x512) 1 _ _ _ _ rfl rfl (ix2 e k)
    (fun b hb => by
      match b with
      | ⟨0, _⟩ => rfl
      | ⟨1, _⟩ => exact absurd rfl hb)
    (Nat.add_comm k.val 512)

variable (W1 : (⟨S1024x512, .f32⟩ : BufTy).Contents (Elt Ideal)) (b1 : (⟨S512, .f32⟩ : BufTy).Contents (Elt Ideal))
  (W2 : (⟨S512x1, .f32⟩ : BufTy).Contents (Elt Ideal)) (b2 : (⟨S1, .f32⟩ : BufTy).Contents (Elt Ideal))

/-- The reference's hidden layer before the rectifier is `hidden` of the two gathered arrays. -/
theorem hidden_eq (e : Fin 160000) (j : Fin 512) :
    val_main_v18 (F := Ideal) h src dst W1 b1 (ix2 e j)
      = hidden (val_main_v6 (F := Ideal) h src) (val_main_v13 (F := Ideal) h dst) W1 b1 e j := by
  have hl : ∀ k' : Fin 1024, lidx_main_v15 (ix2 e j) k' = ix2 e k' := fun k' => funext fun a => by
    match a with
    | ⟨0, _⟩ => rfl
    | ⟨1, _⟩ => rfl
  have hr : ∀ k' : Fin 1024, ridx_main_v15 (ix2 e j) k' = ix2 k' j := fun k' => funext fun a => by
    match a with
    | ⟨0, _⟩ => rfl
    | ⟨1, _⟩ => rfl
  have hb : idx_main_v16 (idx_main_v17 (ix2 e j)) = ix1 j := funext fun a => by
    match a with
    | ⟨0, _⟩ => rfl
  rw [val_main_v18_apply, val_main_v15_apply, val_main_v17_apply, val_main_v16_apply, hb]
  simp only [hl, hr]
  rw [sum_halves]
  simp only [cat_upper, cat_lower]
  rfl

/-- The reference's result is the score of every edge. -/
theorem result_eq :
    val_main_v24 (F := Ideal) h src dst W1 b1 W2 b2
      = scores (val_main_v6 (F := Ideal) h src) (val_main_v13 (F := Ideal) h dst) W1 b1 W2 b2 := by
  funext i
  obtain ⟨e, rfl⟩ : ∃ e : Fin 160000, i = ix1 e := ⟨i 0, eq_ix1 i⟩
  have h1 : ∀ k : Fin 512, lidx_main_v20 (idx_main_v24 (ix1 e)) k = ix2 e k := fun k => funext fun a => by
    match a with
    | ⟨0, _⟩ => exact Fin.ext (Nat.div_one _)
    | ⟨1, _⟩ => rfl
  have h2 : ∀ k : Fin 512, ridx_main_v20 (idx_main_v24 (ix1 e)) k = ix2 k (0 : Fin 1) := fun k => funext fun a => by
    match a with
    | ⟨0, _⟩ => rfl
    | ⟨1, _⟩ => rfl
  have h3 : idx_main_v21 (idx_main_v22 (idx_main_v24 (ix1 e))) = ix1 (0 : Fin 1) := funext fun a => by
    match a with
    | ⟨0, _⟩ => rfl
  rw [val_main_v24_apply, val_main_v23_apply, val_main_v20_apply, val_main_v22_apply, val_main_v21_apply, h3]
  simp only [h1, h2, val_main_v19_apply, hidden_eq, val_main_call0_v0_apply, val_main_call0_cst_apply]
  rfl

end Cert.ReferenceIdeal.Score

end
-- ==== Proof.PreRange.lean ====
/-
  The precondition, decoded: every source and every destination index lies in [-100000, 100000).

  The printed precondition is a conjunction (`and`) of one bit per conjunct; the last two are the
  conjunctions over all edges of `-100000 ≤ src e` and `src e < 100000`, and of the same for `dst`
  (signed compares against broadcast constants). When the whole is 1, each of the two is 1, so each of its
  elements is 1, so both compares hold at every edge. Nothing here depends on the float inputs or on the
  float instance.
-/
import proofs.«402381_j7919919693879_2_alg».proof.Pre_finite_inputs
import Idealize.ShloMosaic.Lib.ReduceAll
import Idealize.ShloMosaic.Lib.ValueIdx

noncomputable section

namespace Cert.PreRange

open Idealize.ShloMosaic Cert.Pre_finite_inputs

instance : Subsingleton (⟨0, ![]⟩ : Shape).Idx := ⟨fun _ _ => funext fun d => d.elim0⟩

variable {F : FTy → Type} [FloatOps F] [Facts]

/-- Both index conjuncts, at every edge, from the precondition being all ones. -/
theorem range_of_pre (a0 : FVec F S100000x512 .f32) (a1 a2 : IVec S160000 32) (a3 : FVec F S1024x512 .f32)
    (a4 : FVec F S512 .f32) (a5 : FVec F S512x1 .f32) (a6 : FVec F S1 .f32)
    (h : fn (F := F) a0 a1 a2 a3 a4 a5 a6 = fun _ => 1#1) :
    (∀ i, IntOp.cmpi .sge (a1 i) 4294867296#32 = 1#1 ∧ IntOp.cmpi .slt (a1 i) 100000#32 = 1#1)
    ∧ (∀ i, IntOp.cmpi .sge (a2 i) 4294867296#32 = 1#1 ∧ IntOp.cmpi .slt (a2 i) 100000#32 = 1#1) := by
  have e := congrFun h ValueIdx.ix0
  dsimp only [fn, fn_part1, fn_part2] at e
  obtain ⟨e1, e2⟩ := IntOp.andi_eq_one.1 e
  obtain ⟨-, e3⟩ := IntOp.andi_eq_one.1 e1
  refine ⟨fun i => ?_, fun i => ?_⟩
  · exact IntOp.andi_eq_one.1 (Host.reduce_andi_all _ _ _ _ _ e3 i)
  · exact IntOp.andi_eq_one.1 (Host.reduce_andi_all _ _ _ _ _ e2 i)

end Cert.PreRange

end
-- ==== Proof.IndexRange.lean ====
/-
  Node indices in range, word by word.

  An index word `w` with -100000 ≤ w < 100000 (signed) is first wrapped the way array indexing wraps a
  negative index: `w + 100000` when `w < 0`, else `w`. The wrapped word lies in [0, 99999]: for
  negative `w` the 32-bit sum does not overflow, since -100000 ≤ w gives 0 ≤ w + 100000 < 100000.
  So both bounds tests that guard a gather of a 100000-row table succeed on it.
  A conjunction (a reduction by `and`) of bits that are all 1, started from 1, is 1.
-/
import Idealize.ShloMosaic.Lib.Affine
import Idealize.ShloMosaic.Lib.ReduceAll

namespace Cert.IndexRange

open Idealize.ShloMosaic

/-- A 32-bit word read signed is its unsigned value, or that less 2^32 when the top bit is set. -/
theorem toInt_cases (v : BitVec 32) :
    (2 * v.toNat < 2 ^ 32 ∧ v.toInt = v.toNat) ∨ (2 ^ 32 ≤ 2 * v.toNat ∧ v.toInt = (v.toNat : Int) - 2 ^ 32) := by
  have h := BitVec.toInt_eq_toNat_cond v
  by_cases c : 2 * v.toNat < 2 ^ 32
  · left; exact ⟨c, by rw [h, if_pos c]⟩
  · right; refine ⟨by omega, ?_⟩; rw [h, if_neg c]; norm_cast

/-- The wrapped index: `w + 100000` for a negative word, else `w`. -/
def wrap (w : BitVec 32) : BitVec 32 :=
  Scalar.select (IntOp.cmpi .slt w 0#32) (IntOp.addi w 100000#32) w

/-- A word in [-100000, 100000) wraps into [0, 99999]: both bounds tests give 1. -/
theorem wrap_in_range (w : BitVec 32) (hlo : IntOp.cmpi .sge w 4294867296#32 = 1#1)
    (hhi : IntOp.cmpi .slt w 100000#32 = 1#1) :
    IntOp.cmpi .sge (wrap w) 0#32 = 1#1 ∧ IntOp.cmpi .sle (wrap w) 99999#32 = 1#1 := by
  unfold wrap
  rw [IntOp.cmpi_sge] at hlo
  rw [IntOp.cmpi_slt] at hhi
  rw [IntOp.cmpi_sge, IntOp.cmpi_sle]
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at hlo; rw [e2] at hhi; rw [e3, e4]
  have hw := w.isLt
  by_cases hneg : w.toInt < 0
  · have c : IntOp.cmpi .slt w 0#32 = 1#1 := IntOp.cmpi_slt.2 (by rw [e3]; exact hneg)
    rw [c]
    show 0 ≤ (w + 100000#32).toInt ∧ (w + 100000#32).toInt ≤ 99999
    have hs : (w + 100000#32).toNat = (w.toNat + 100000) % 2 ^ 32 := by rw [BitVec.toNat_add]; rfl
    rcases toInt_cases w with ⟨a1, a2⟩ | ⟨a1, a2⟩ <;>
      rcases toInt_cases (w + 100000#32) with ⟨b1, b2⟩ | ⟨b1, b2⟩ <;> omega
  · have c : ¬ IntOp.cmpi .slt w 0#32 = 1#1 := fun h => hneg (by have := IntOp.cmpi_slt.1 h; rwa [e3] at this)
    have c0 : IntOp.cmpi .slt w 0#32 = 0#1 := by
      generalize IntOp.cmpi .slt w 0#32 = b at c ⊢; revert b; decide
    rw [c0]
    show 0 ≤ w.toInt ∧ w.toInt ≤ 99999
    omega

/-- A left fold by `and` from 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_ones f l fun n hn => h n (List.mem_cons_of_mem _ hn)

/-- A reduction by `and`, from an initial 1, of an array of bits that are all 1 is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun i _ => hx i

end Cert.IndexRange
-- ==== Proof.GatheredRows.lean ====
/-
  The kernel's two gathered arrays, as the pipelined region finds them.

  Before the region the program takes rows of the node table twice, by the source and by the destination
  indices. Each take wraps negative indices (`startCol`: the column of wrapped indices), gathers the rows
  at the wrapped indices (`rows`), tests each wrapped index against [0, 99999] (`inBounds`), and keeps
  the gathered row where the test holds and a fill value where it fails (`taken`).
  For indices in [-100000, 100000) every wrapped index is in [0, 99999] (`Cert.IndexRange.wrap_in_range`),
  so the test holds at every edge and the fill is never chosen: `taken = rows`. The gather itself is never
  opened. `V_main_v0` / `V_main_v1`: the arrays the region's first two windows stage are `taken` of the
  node table and the source / destination indices as launched.
-/
import proofs.«402381_j7919919693879_2_alg».proof.Proof.Gen.KernelIdeal.Frame
import proofs.«402381_j7919919693879_2_alg».proof.Proof.IndexRange
import Idealize.ShloMosaic.Lib.StableHlo.Run
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
  Idealize.ShloMosaic.StableHlo Idealize.ShloMosaic.ValueIdx

variable {F : FTy → Type} [FloatOps F]

/-- The wrapped indices, as the [160000, 1] column of start indices the gather takes. -/
def startCol (idx : IVec S160000 32) : IVec S160000x1 32 :=
  broadcastInDim S160000x1 ![0] bcast_S160000_S160000x1_0
    (select (cmpi .slt idx (broadcastInDim S160000 ![] bcast_S_S160000 (constantI S_ 32 0#32)))
      (addi idx (broadcastInDim S160000 ![] bcast_S_S160000 (constantI S_ 32 100000#32))) idx)

/-- Row `e` of the column is the wrap of index `e`. -/
theorem startCol_apply (idx : IVec S160000 32) (i : S160000x1.Idx) :
    startCol idx i = Cert.IndexRange.wrap (idx (ix1 (i 0))) := by
  unfold startCol
  rw [broadcastInDim_apply _ bcast_S160000_S160000x1_0 _ i (ix1 (i 0)) (fun a => match a with
    | ⟨0, _⟩ => by show (i 0).val = if (160000 : Nat) = 1 then 0 else (i 0).val; rw [if_neg (by decide)])]
  rfl

/-- The bounds test of every edge: its wrapped index is at least 0 and at most 99999. -/
def inBounds (idx : IVec S160000 32) : IVec S160000 1 :=
  Host.reduce IntOp.andi
    (andi (cmpi .sge (startCol idx) (broadcastInDim S160000x1 ![] bcast_S_S160000x1 (constantI S_ 32 0#32)))
      (cmpi .sle (startCol idx) (broadcastInDim S160000x1 ![0, 1] bcast_S1x1_S160000x1_0_1
        (broadcastInDim S1x1 ![1] bcast_S1_S1x1_1 (constantI S1 32 99999#32)))))
    (constantI S_ 1 1#1) reducesTo_S160000x1_S160000_d1 h_S_

/-- For indices in [-100000, 100000) the test holds at every edge. -/
theorem inBounds_one (idx : IVec S160000 32)
    (hr : ∀ i, IntOp.cmpi .sge (idx i) 4294867296#32 = 1#1 ∧ IntOp.cmpi .slt (idx i) 100000#32 = 1#1)
    (j : S160000.Idx) : inBounds idx j = 1#1 := by
  unfold inBounds
  refine Cert.IndexRange.reduce_andi_of_all _ _ _ _ rfl (fun i => ?_) j
  obtain ⟨h0, h1⟩ := Cert.IndexRange.wrap_in_range _ (hr (ix1 (i 0))).1 (hr (ix1 (i 0))).2
  refine IntOp.andi_eq_one.2 ⟨?_, ?_⟩
  · show IntOp.cmpi .sge (startCol idx i) 0#32 = 1#1
    rw [startCol_apply]; exact h0
  · show IntOp.cmpi .sle (startCol idx i) 99999#32 = 1#1
    rw [startCol_apply]; exact h1

/-- The gathered rows: row `e` is the node table's row at the wrapped index of edge `e`. -/
def rows (h : FVec F S100000x512 .f32) (idx : IVec S160000 32) : FVec F S160000x512 .f32 :=
  Host.gather gather_S100000x512_S160000x1_S160000x512_1_0_n_n_0_1_1512 h (startCol idx)

/-- What the take returns: the gathered row where the bounds test holds, the fill value elsewhere. -/
def taken (h : FVec F S100000x512 .f32) (idx : IVec S160000 32) : FVec F S160000x512 .f32 :=
  select (broadcastInDim S160000x512 ![0] bcast_S160000_S160000x512_0 (inBounds idx)) (rows h idx)
    (broadcastInDim S160000x512 ![] bcast_S_S160000x512 (constant S_ .f32 0x7FC00000#32))

/-- With every index in range the fill is never chosen. -/
theorem taken_eq_rows (h : FVec F S100000x512 .f32) (idx : IVec S160000 32)
    (hr : ∀ i, IntOp.cmpi .sge (idx i) 4294867296#32 = 1#1 ∧ IntOp.cmpi .slt (idx i) 100000#32 = 1#1) :
    taken h idx = rows h idx := by
  funext j
  unfold taken
  rw [select_apply]
  have hb : broadcastInDim S160000x512 ![0] bcast_S160000_S160000x512_0 (inBounds idx) j = 1#1 := by
    rw [broadcastInDim_apply _ bcast_S160000_S160000x512_0 _ j (ix1 (j 0)) (fun a => match a with
      | ⟨0, _⟩ => by show (j 0).val = if (160000 : Nat) = 1 then 0 else (j 0).val; rw [if_neg (by decide)])]
    exact inBounds_one idx hr _
  rw [hb, select_one]

variable (m : (ℓ : Loc nD τ sig) → Buf (Elt F) ℓ)

set_option maxHeartbeats 2000000 in
/-- The region's first window stages the take by the source indices. -/
theorem V_main_v0 (c : Dev nD) :
    V m c main_v0 = taken (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results_simp
  simp only [TRef.ofBuf, TRef.toBuf, cast_eq]
  rfl

set_option maxHeartbeats 2000000 in
/-- Its second window stages the take by the destination indices. -/
theorem V_main_v1 (c : Dev nD) :
    V m c main_v1 = taken (m ((c : Thread nD τ).loc main_arg0)) (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results_simp
  simp only [TRef.ofBuf, TRef.toBuf, cast_eq]
  rfl

end Cert.KernelIdeal.Rows

end
-- ==== Proof.Weights.lean ====
/-
  The weight and bias arrays the region's windows stage, read at an index.

  Before the region the program cuts the [1024, 512] first weight into its upper and lower 512 rows, lays the
  first bias out as one row of 512, the second weight's single column as one row of 512, and the second
  bias's one entry as a [1, 1] array. Read at an index:
    upper half (k, j) = W1 (k, j);  lower half (k, j) = W1 (512 + k, j);
    bias row (0, j) = b1 j;  weight row (0, j) = W2 (j, 0);  bias entry (0, 0) = b2 0.
  `V_main_v2` … `V_main_v7`: the arrays the region finds are these operations of the arguments as launched.
-/
import proofs.«402381_j7919919693879_2_alg».proof.Proof.Gen.KernelIdeal.Frame
import proofs.«402381_j7919919693879_2_alg».proof.Proof.EdgeScore
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Weights

open Cert.KernelIdeal Cert.KernelIdeal.Gen Idealize.ShloMosaic Idealize.ShloMosaic.TcCoe Idealize.SL.Sem
  Idealize.ShloMosaic.StableHlo Idealize.ShloMosaic.ValueIdx Cert.EdgeScore

/-! ## The layout operations at an index -/

theorem upperHalf_apply {α : Type} (W1 : S1024x512.Idx → α) (k j : Fin 512) :
    extractStridedSlice S512x512 ![0, 0] W1 slices_S1024x512_S512x512_0_0 (ix2 k j) = W1 (ix2 (upper k) j) :=
  slice2_axis0_apply 0 W1 slices_S1024x512_S512x512_0_0 k j (upper k) (Nat.zero_add k.val).symm

theorem lowerHalf_apply {α : Type} (W1 : S1024x512.Idx → α) (k j : Fin 512) :
    extractStridedSlice S512x512 ![512, 0] W1 slices_S1024x512_S512x512_512_0 (ix2 k j) = W1 (ix2 (lower k) j) :=
  slice2_axis0_apply 512 W1 slices_S1024x512_S512x512_512_0 k j (lower k) rfl

theorem biasRow_apply {α : Type} (b1 : S512.Idx → α) (j : Fin 512) :
    shapeCast S1x512 b1 shapeCasts_S512_S1x512 (ix2 (0 : Fin 1) j) = b1 (ix1 j) :=
  shapeCast_a_1a_apply b1 shapeCasts_S512_S1x512 0 j

theorem weightRow_apply {α : Type} (W2 : S512x1.Idx → α) (j : Fin 512) :
    shapeCast S1x512 (shapeCast S512 W2 shapeCasts_S512x1_S512) shapeCasts_S512_S1x512 (ix2 (0 : Fin 1) j)
      = W2 (ix2 j (0 : Fin 1)) := by
  rw [shapeCast_a_1a_apply]
  exact shapeCast_apply W2 shapeCasts_S512x1_S512 (ix1 j) (ix2 j (0 : Fin 1)) (by
    rw [Shape.rowMajor_val_two, Shape.rowMajor_val_one]
    show j.val * 1 + 0 = j.val
    omega)

theorem biasEntry_apply {α : Type} (b2 : S1.Idx → α) :
    shapeCast S1x1 b2 shapeCasts_S1_S1x1 (ix2 (0 : Fin 1) (0 : Fin 1)) = b2 (ix1 (0 : Fin 1)) :=
  shapeCast_a_1a_apply b2 shapeCasts_S1_S1x1 0 0

/-! ## The arrays as the region finds them -/

variable {F : FTy → Type} [FloatOps F] (m : (ℓ : Loc nD τ sig) → Buf (Elt F) ℓ)

set_option maxHeartbeats 2000000 in
theorem V_main_v2 (c : Dev nD) :
    V m c main_v2 = extractStridedSlice S512x512 ![0, 0] (m ((c : Thread nD τ).loc main_arg3)) slices_S1024x512_S512x512_0_0 := by
  dsimp only [Gen.V, Gen.V0]
  simp only [Gen.hostOps0, Gen.hostOps0_1, Gen.hostOps0_2, List.flatten_cons, List.flatten_nil, List.append_nil,
    List.cons_append, List.nil_append]
  after_results_simp

set_option maxHeartbeats 2000000 in
theorem V_main_v3 (c : Dev nD) :
    V m c main_v3 = extractStridedSlice S512x512 ![512, 0] (m ((c : Thread nD τ).loc main_arg3)) slices_S1024x512_S512x512_512_0 := by
  dsimp only [Gen.V, Gen.V0]
  simp only [Gen.hostOps0, Gen.hostOps0_1, Gen.hostOps0_2, List.flatten_cons, List.flatten_nil, List.append_nil,
    List.cons_append, List.nil_append]
  after_results_simp

set_option maxHeartbeats 2000000 in
theorem V_main_v5 (c : Dev nD) :
    V m c main_v5 = shapeCast S1x512 (shapeCast S512 (m ((c : Thread nD τ).loc main_arg5)) shapeCasts_S512x1_S512) shapeCasts_S512_S1x512 := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 2000000 in
theorem V_main_v6 (c : Dev nD) :
    V m c main_v6 = shapeCast S1x512 (m ((c : Thread nD τ).loc main_arg4)) shapeCasts_S512_S1x512 := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 2000000 in
theorem V_main_v7 (c : Dev nD) :
    V m c main_v7 = shapeCast S1x1 (m ((c : Thread nD τ).loc main_arg6)) shapeCasts_S1_S1x1 := by
  dsimp only [Gen.V, Gen.V0]
  simp only [Gen.hostOps0, Gen.hostOps0_1, Gen.hostOps0_2, List.flatten_cons, List.flatten_nil, List.append_nil,
    List.cons_append, List.nil_append]
  after_results_simp
  rfl

end Cert.KernelIdeal.Weights

end
-- ==== Proof.BlockScore.lean ====
/-
  What the kernel body stores for one block of 1280 edges, read at a row.

  The body loads a block of 1280 source rows `x0` and 1280 destination rows `x1` (512 features each), the
  upper and lower halves `x2`, `x3` of the first weight (512 by 512 each), the first bias as one row `x4`,
  the second weight as one row `x5`, and the second bias as a single entry `x6`; it stores one column of
  1280 scores. At row `r` that score is
    (sum over j of max ((sum over k of x0 r k * x2 k j) + (sum over k of x1 r k * x3 k j) + x4 0 j) 0 * x5 0 j) + x6 0 0:
  each of the two block products into a zero accumulator is the plain sum over the 512 contracted entries,
  the bias row and the weight row are broadcast down the 1280 rows, the lane sum over the 512 hidden units
  is a plain sum, and the one bias entry is added to every row.
-/
import proofs.«402381_j7919919693879_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockScore

open Cert.KernelIdeal Cert.KernelIdeal.Gen Idealize.ShloMosaic Idealize.ShloMosaic.ValueIdx

/-! ## The block product at an entry -/

theorem lhs_0 (i : S1280x512.Idx) (q : dot_S1280x512_S512x512_S1280x512_1_0_0_1_n_n.contr.Idx) :
    (dot_S1280x512_S512x512_S1280x512_1_0_0_1_n_n.lhsIdx i q 0).val = (i 0).val := by
  unfold DotDims.lhsIdx
  rw [dif_neg (show ¬(0 : Fin S1280x512.rank) ∈ dot_S1280x512_S512x512_S1280x512_1_0_0_1_n_n.lhsBatch by decide),
    dif_pos (show (0 : Fin S1280x512.rank) ∈ dot_S1280x512_S512x512_S1280x512_1_0_0_1_n_n.lhsNonContracting by decide)]
  rfl
theorem lhs_1 (i : S1280x512.Idx) (q : dot_S1280x512_S512x512_S1280x512_1_0_0_1_n_n.contr.Idx) :
    (dot_S1280x512_S512x512_S1280x512_1_0_0_1_n_n.lhsIdx i q 1).val = (q ⟨0, by decide⟩).val :=
  dot_S1280x512_S512x512_S1280x512_1_0_0_1_n_n.lhsIdx_val_of_single rfl i q
theorem rhs_0 (i : S1280x512.Idx) (q : dot_S1280x512_S512x512_S1280x512_1_0_0_1_n_n.contr.Idx) :
    (dot_S1280x512_S512x512_S1280x512_1_0_0_1_n_n.rhsIdx i q 0).val = (q ⟨0, by decide⟩).val :=
  dot_S1280x512_S512x512_S1280x512_1_0_0_1_n_n.rhsIdx_val_of_single rfl i q
theorem rhs_1 (i : S1280x512.Idx) (q : dot_S1280x512_S512x512_S1280x512_1_0_0_1_n_n.contr.Idx) :
    (dot_S1280x512_S512x512_S1280x512_1_0_0_1_n_n.rhsIdx i q 1).val = (i 1).val := by
  unfold DotDims.rhsIdx
  rw [dif_neg (show ¬(1 : Fin S512x512.rank) ∈ dot_S1280x512_S512x512_S1280x512_1_0_0_1_n_n.rhsBatch by decide),
    dif_pos (show (1 : Fin S512x512.rank) ∈ dot_S1280x512_S512x512_S1280x512_1_0_0_1_n_n.rhsNonContracting by decide)]
  rfl

/-- A block of rows times a 512 by 512 weight, into a zero accumulator, at row `r` and column `j`: the sum over
    the 512 contracted entries. -/
theorem product_apply (x : FVec Ideal S1280x512 .f32) (w : FVec Ideal S512x512 .f32) (r : Fin 1280) (j : Fin 512) :
    matmul dot_S1280x512_S512x512_S1280x512_1_0_0_1_n_n (some .fp32) x w (constant S1280x512 .f32 0x00000000#32) (ix2 r j)
      = ∑ k : Fin 512, x (ix2 r k) * w (ix2 k j) := by
  simp only [matmul]
  rw [Ideal.matmul_constant_zero_apply, ← Equiv.sum_comp (contrEquiv1 dot_S1280x512_S512x512_S1280x512_1_0_0_1_n_n 512 rfl rfl).symm]
  refine Finset.sum_congr rfl fun k _ => ?_
  have hk := contrEquiv1_symm_val dot_S1280x512_S512x512_S1280x512_1_0_0_1_n_n 512 rfl rfl k
  have el : dot_S1280x512_S512x512_S1280x512_1_0_0_1_n_n.lhsIdx (ix2 r j) ((contrEquiv1 dot_S1280x512_S512x512_S1280x512_1_0_0_1_n_n 512 rfl rfl).symm k) = ix2 r k :=
    funext fun a => Fin.ext (by
      match a with
      | ⟨0, _⟩ => exact lhs_0 _ _
      | ⟨1, _⟩ => exact (lhs_1 _ _).trans hk)
  have er : dot_S1280x512_S512x512_S1280x512_1_0_0_1_n_n.rhsIdx (ix2 r j) ((contrEquiv1 dot_S1280x512_S512x512_S1280x512_1_0_0_1_n_n 512 rfl rfl).symm k) = ix2 k j :=
    funext fun a => Fin.ext (by
      match a with
      | ⟨0, _⟩ => exact (rhs_0 _ _).trans hk
      | ⟨1, _⟩ => exact rhs_1 _ _)
  rw [el, er]

/-! ## The lane sum and the column it is kept as -/

/-- The sum over the 512 lanes of a block, at row `r`. -/
theorem laneSum_apply (v : FVec Ideal S1280x512 .f32) (r : Fin 1280) :
    multiReduction .add [1] S1280 v 0x00000000#32 reduces_S1280x512_S1280 (.inl rfl) rfl (ix1 r)
      = ∑ j : Fin 512, v (ix2 r j) := by
  refine (Ideal.multiReduction_add_single v 0x00000000#32 reduces_S1280x512_S1280 (.inl rfl) rfl (ix1 r)).trans ?_
  refine Finset.sum_congr rfl fun k _ => congrArg v (funext fun a => Fin.ext ?_)
  match a with
  | ⟨0, _⟩ => rfl
  | ⟨1, _⟩ => rfl

/-- A [1280] vector kept as a [1280, 1] column reads, at (r, 0), the vector at r. -/
theorem column_apply {α : Type} (v : S1280.Idx → α) (r : Fin 1280) :
    shapeCast S1280x1 v shapeCasts_S1280_S1280x1 (ix2 r (0 : Fin 1)) = v (ix1 r) :=
  shapeCast_apply v shapeCasts_S1280_S1280x1 _ _ (by
    rw [Shape.rowMajor_val_two, Shape.rowMajor_val_one]
    show r.val = r.val * 1 + 0
    omega)

/-! ## The stored score at a row -/

theorem pay_apply (x0 x1 : FVec Ideal S1280x512 .f32) (x2 x3 : FVec Ideal S512x512 .f32)
    (x4 x5 : FVec Ideal S1x512 .f32) (x6 : FVec Ideal S1x1 .f32) (r : Fin 1280) :
    k0_pay1 (F := Ideal) x0 x1 x2 x3 x4 x5 x6 (ix2 r (0 : Fin 1))
      = (∑ j : Fin 512,
          max ((∑ k : Fin 512, x0 (ix2 r k) * x2 (ix2 k j)) + (∑ k : Fin 512, x1 (ix2 r k) * x3 (ix2 k j))
              + x4 (ix2 (0 : Fin 1) j)) (Ideal.ofBits .f32 0x00000000#32) * x5 (ix2 (0 : Fin 1) j))
        + x6 (ix2 (0 : Fin 1) (0 : Fin 1)) := by
  unfold k0_pay1
  simp only [shapeCast_self]
  rw [addf_apply, broadcast_apply, column_apply, laneSum_apply]
  simp only [mulf_apply, maximumf_apply, addf_apply, broadcast_apply, broadcastTo_1b_ab_apply, product_apply]
  have e6 : extractAt ![0, 0] x6 inpos_S1x1_p0_0 = x6 (ix2 (0 : Fin 1) (0 : Fin 1)) :=
    congrArg x6 (funext fun a => by
      match a with
      | ⟨0, _⟩ => rfl
      | ⟨1, _⟩ => rfl)
  rw [e6]
  rfl

end Cert.KernelIdeal.BlockScore

end
-- ==== Proof.ScoreColumn.lean ====
/-
  The region's output array after all 125 grid points: the column of edge scores.

  Point `t` of the grid works on edges 1280 t … 1280 t + 1279: its two row windows are block `t` of the
  two gathered arrays, its five weight windows are the whole weight and bias arrays at every point, and its
  output window is block `t` of the [160000, 1] column. So row `r` of what point `t` stores is the score of
  edge `1280 t + r` (`Cert.KernelIdeal.BlockScore.pay_apply`, the block entries read off the arrays), that is,
  the block point `t` writes back is block `t` of the whole score column; and every edge `e` lies in the
  block of point `e / 1280`, so the blocks cover the column and the array ends equal to it.
  The arrays enter as hypotheses: the two gathered arrays `gs`, `gd`, and the weight windows' arrays read
  at an index in terms of the arguments `W1`, `b1`, `W2`, `b2`.
-/
import proofs.«402381_j7919919693879_2_alg».proof.Proof.Gen.KernelIdeal.Frame
import proofs.«402381_j7919919693879_2_alg».proof.Proof.EdgeScore
import proofs.«402381_j7919919693879_2_alg».proof.Proof.BlockScore
import Idealize.ShloMosaic.Lib.Pipeline.Value
import Idealize.ShloMosaic.Lib.ValueIdx

set_option maxRecDepth 16384

noncomputable section

open scoped BigOperators

namespace Cert.KernelIdeal.ScoreColumn

open Cert.KernelIdeal Cert.KernelIdeal.Gen Idealize.ShloMosaic Idealize.ShloMosaic.TcCoe Idealize.SL.Sem
  Idealize.ShloMosaic.ValueIdx Cert.EdgeScore
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the two row windows and the output window are at block `t` of their
    arrays at point `t`, the five weight windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 125 :=
  lt_of_lt_of_eq t.isLt (show cfg0.N = 125 from N_0)

/-- Edge `1280 t + r`: row `r` of point `t`'s block. -/
def edge (t : Fin cfg0.N) (r : Fin 1280) : Fin 160000 :=
  ⟨t.val * 1280 + r.val, by have := point_lt t; have := r.isLt; omega⟩

/-! ## The windows' blocks at a point, read off their arrays -/

theorem rows0 (c : Dev nD) (t : Fin cfg0.N) (r : Fin 1280) (k : Fin 512) :
    iblk m c 0 t (ix2 r k) = V m c main_v0 (ix2 (edge t r) k) := by
  show V m c main_v0 (((cfg0.win 0).blk t).view.emb (ix2 r k)) = V m c main_v0 (ix2 (edge t r) k)
  refine congrArg (V m c main_v0) (funext fun a => Fin.ext ?_)
  obtain ⟨e0, e1, -⟩ := idx_facts t
  match a with
  | ⟨0, _⟩ => show win0_0.index t (0 : Fin 2) * 1280 + 1 * r.val = t.val * 1280 + r.val; omega
  | ⟨1, _⟩ => show win0_0.index t (1 : Fin 2) * 512 + 1 * k.val = k.val; omega

theorem rows1 (c : Dev nD) (t : Fin cfg0.N) (r : Fin 1280) (k : Fin 512) :
    iblk m c 1 t (ix2 r k) = V m c main_v1 (ix2 (edge t r) k) := by
  show V m c main_v1 (((cfg0.win 1).blk t).view.emb (ix2 r k)) = V m c main_v1 (ix2 (edge t r) k)
  refine congrArg (V m c main_v1) (funext fun a => Fin.ext ?_)
  obtain ⟨-, -, e0, e1, -⟩ := idx_facts t
  match a with
  | ⟨0, _⟩ => show win0_1.index t (0 : Fin 2) * 1280 + 1 * r.val = t.val * 1280 + r.val; omega
  | ⟨1, _⟩ => show win0_1.index t (1 : Fin 2) * 512 + 1 * k.val = k.val; omega

theorem whole2 (c : Dev nD) (t : Fin cfg0.N) (k j : Fin 512) :
    iblk m c 2 t (ix2 k j) = V m c main_v2 (ix2 k j) := by
  show V m c main_v2 (((cfg0.win 2).blk t).view.emb (ix2 k j)) = V m c main_v2 (ix2 k j)
  refine congrArg (V m c main_v2) (funext fun a => Fin.ext ?_)
  obtain ⟨-, -, -, -, e0, e1, -⟩ := idx_facts t
  match a with
  | ⟨0, _⟩ => show win0_2.index t (0 : Fin 2) * 512 + 1 * k.val = k.val; omega
  | ⟨1, _⟩ => show win0_2.index t (1 : Fin 2) * 512 + 1 * j.val = j.val; omega

theorem whole3 (c : Dev nD) (t : Fin cfg0.N) (k j : Fin 512) :
    iblk m c 3 t (ix2 k j) = V m c main_v3 (ix2 k j) := by
  show V m c main_v3 (((cfg0.win 3).blk t).view.emb (ix2 k j)) = V m c main_v3 (ix2 k j)
  refine congrArg (V m c main_v3) (funext fun a => Fin.ext ?_)
  obtain ⟨-, -, -, -, -, -, e0, e1, -⟩ := idx_facts t
  match a with
  | ⟨0, _⟩ => show win0_3.index t (0 : Fin 2) * 512 + 1 * k.val = k.val; omega
  | ⟨1, _⟩ => show win0_3.index t (1 : Fin 2) * 512 + 1 * j.val = j.val; omega

theorem whole4 (c : Dev nD) (t : Fin cfg0.N) (j : Fin 512) :
    iblk m c 4 t (ix2 (0 : Fin 1) j) = V m c main_v6 (ix2 (0 : Fin 1) j) := by
  show V m c main_v6 (((cfg0.win 4).blk t).view.emb (ix2 (0 : Fin 1) j)) = V m c main_v6 (ix2 (0 : Fin 1) j)
  refine congrArg (V m c main_v6) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 512 + 1 * j.val = j.val; omega

theorem whole5 (c : Dev nD) (t : Fin cfg0.N) (j : Fin 512) :
    iblk m c 5 t (ix2 (0 : Fin 1) j) = V m c main_v5 (ix2 (0 : Fin 1) j) := by
  show V m c main_v5 (((cfg0.win 5).blk t).view.emb (ix2 (0 : Fin 1) j)) = V m c main_v5 (ix2 (0 : Fin 1) j)
  refine congrArg (V m c main_v5) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 512 + 1 * j.val = j.val; omega

theorem whole6 (c : Dev nD) (t : Fin cfg0.N) :
    iblk m c 6 t (ix2 (0 : Fin 1) (0 : Fin 1)) = V m c main_v7 (ix2 (0 : Fin 1) (0 : Fin 1)) := by
  show V m c main_v7 (((cfg0.win 6).blk t).view.emb (ix2 (0 : Fin 1) (0 : Fin 1))) = V m c main_v7 (ix2 (0 : Fin 1) (0 : Fin 1))
  refine congrArg (V m c main_v7) (funext fun a => Fin.ext ?_)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 1 + 1 * 0 = 0; omega

/-- Row `r` of the output block of point `t` is row `1280 t + r` of the column. -/
theorem emb7 (t : Fin cfg0.N) (r : Fin 1280) :
    ((cfg0.win 7).blk t).view.emb (ix2 r (0 : Fin 1)) = ix2 (edge t r) (0 : Fin 1) := by
  funext a
  apply Fin.ext
  obtain ⟨-, -, -, -, -, -, -, -, -, -, -, -, -, -, e0, e1⟩ := idx_facts t
  match a with
  | ⟨0, _⟩ => show win0_7.index t (0 : Fin 2) * 1280 + 1 * r.val = t.val * 1280 + r.val; omega
  | ⟨1, _⟩ => show win0_7.index t (1 : Fin 2) * 1 + 1 * 0 = 0; omega

/-! ## What a point writes back, and the whole column -/

variable (gs gd : (⟨2, ![160000, 512]⟩ : Shape).Idx → EReal) (W1 : (⟨2, ![1024, 512]⟩ : Shape).Idx → EReal)
  (b1 : (⟨1, ![512]⟩ : Shape).Idx → EReal) (W2 : (⟨2, ![512, 1]⟩ : Shape).Idx → EReal)
  (b2 : (⟨1, ![1]⟩ : Shape).Idx → EReal)

/-- The block point `t` writes back is block `t` of the score column. -/
theorem flushed_eq (c : Dev nD) (t : Fin cfg0.N)
    (h0 : V m c main_v0 = gs) (h1 : V m c main_v1 = gd)
    (h2 : ∀ k j : Fin 512, V m c main_v2 (ix2 k j) = W1 (ix2 (upper k) j))
    (h3 : ∀ k j : Fin 512, V m c main_v3 (ix2 k j) = W1 (ix2 (lower k) j))
    (h4 : ∀ j : Fin 512, V m c main_v6 (ix2 (0 : Fin 1) j) = b1 (ix1 j))
    (h5 : ∀ j : Fin 512, V m c main_v5 (ix2 (0 : Fin 1) j) = W2 (ix2 j (0 : Fin 1)))
    (h6 : V m c main_v7 (ix2 (0 : Fin 1) (0 : Fin 1)) = b2 (ix1 (0 : Fin 1))) :
    (dats m 0 c).flushed 7 t = ((cfg0.win 7).blk t).view.read (Elt Ideal) (scoreColumn gs gd W1 b1 W2 b2) := by
  show (cfg0.win 7).cut (grid0.coords t) ((dats m 0 c).after 7 t) = _
  rw [after0_7]
  unfold out0_7
  rw [View.canon_unit_zero hz]
  simp only [View.ld_unit_zero (S := S1280x512) hz, View.ld_unit_zero (S := S512x512) hz,
    View.ld_unit_zero (S := S1x512) hz, View.ld_unit_zero (S := S1x1) hz]
  funext y
  obtain ⟨r, hr⟩ : ∃ r : Fin 1280, y = ix2 r (0 : Fin 1) :=
    ⟨⟨(y 0).val, (y 0).isLt⟩, funext fun a => by
      match a with
      | ⟨0, _⟩ => rfl
      | ⟨1, _⟩ => exact Fin.ext (by have h1 : (y 1).val < 1 := (y 1).isLt; show (y 1).val = 0; omega)⟩
  subst hr
  show k0_pay1 (F := Ideal) (iblk m c 0 t) (iblk m c 1 t) (iblk m c 2 t) (iblk m c 3 t) (iblk m c 4 t) (iblk m c 5 t)
      (iblk m c 6 t) (ix2 r (0 : Fin 1))
    = scoreColumn gs gd W1 b1 W2 b2 (((cfg0.win 7).blk t).view.emb (ix2 r (0 : Fin 1)))
  refine (BlockScore.pay_apply (iblk m c 0 t) (iblk m c 1 t) (iblk m c 2 t) (iblk m c 3 t) (iblk m c 4 t)
    (iblk m c 5 t) (iblk m c 6 t) r).trans ?_
  rw [emb7 t r]
  show _ = score gs gd W1 b1 W2 b2 (edge t r)
  unfold Cert.EdgeScore.score Cert.EdgeScore.hidden
  simp only [rows0, rows1, whole2, whole3, whole4, whole5, whole6, h2, h3, h4, h5, h6]
  rw [h0, h1]

/-- An index of the column is in point `t`'s block iff each coordinate is in the block's range. -/
theorem mem_blk (t : Fin cfg0.N) (i : S160000x1.Idx) :
    i ∈ ((cfg0.win 7).blk t).view.set ↔ ∀ a : Fin 2, win0_7.index t a * S1280x1.size a ≤ (i a).val
      ∧ (i a).val < win0_7.index t a * S1280x1.size a + S1280x1.size a := by
  show i ∈ ((View.whole main_v8).slice (win0_7.rect t)).set ↔ _
  rw [View.set_slice_whole, Rect.mem_set_unit]
  exact Iff.rfl

/-- Every edge is in the block of the point `e / 1280`. -/
theorem cover (i : S160000x1.Idx) :
    ∃ t : Fin cfg0.N, (cfg0.win 7).flush t = true ∧ i ∈ ((cfg0.win 7).blk t).view.set := by
  have hi0 : (i 0).val < 160000 := (i 0).isLt
  have hi1 : (i 1).val < 1 := (i 1).isLt
  obtain ⟨t, ht⟩ : ∃ t : Fin cfg0.N, t.val = (i 0).val / 1280 :=
    ⟨⟨(i 0).val / 1280, lt_of_lt_of_eq (by omega : (i 0).val / 1280 < 125) (show (125 : Nat) = cfg0.N from N_0.symm)⟩, rfl⟩
  refine ⟨t, flush0_7 t, ?_⟩
  rw [mem_blk]
  obtain ⟨-, -, -, -, -, -, -, -, -, -, -, -, -, -, e0, e1⟩ := idx_facts t
  intro a
  match a with
  | ⟨0, _⟩ =>
    show win0_7.index t (0 : Fin 2) * 1280 ≤ (i 0).val ∧ (i 0).val < win0_7.index t (0 : Fin 2) * 1280 + 1280
    omega
  | ⟨1, _⟩ =>
    show win0_7.index t (1 : Fin 2) * 1 ≤ (i 1).val ∧ (i 1).val < win0_7.index t (1 : Fin 2) * 1 + 1
    omega

/-- The output array after the run is the score column. -/
theorem final (c : Dev nD)
    (h0 : V m c main_v0 = gs) (h1 : V m c main_v1 = gd)
    (h2 : ∀ k j : Fin 512, V m c main_v2 (ix2 k j) = W1 (ix2 (upper k) j))
    (h3 : ∀ k j : Fin 512, V m c main_v3 (ix2 k j) = W1 (ix2 (lower k) j))
    (h4 : ∀ j : Fin 512, V m c main_v6 (ix2 (0 : Fin 1) j) = b1 (ix1 j))
    (h5 : ∀ j : Fin 512, V m c main_v5 (ix2 (0 : Fin 1) j) = W2 (ix2 j (0 : Fin 1)))
    (h6 : V m c main_v7 (ix2 (0 : Fin 1) (0 : Fin 1)) = b2 (ix1 (0 : Fin 1))) :
    (dats m 0 c).arrAt 7 cfg0.N = scoreColumn gs gd W1 b1 W2 b2 :=
  (dats m 0 c).arrAt_eq_of_cover 7 _ (fun t _ => flushed_eq m gs gd W1 b1 W2 b2 c t h0 h1 h2 h3 h4 h5 h6) cover

end Cert.KernelIdeal.ScoreColumn

end
-- ==== Proof.KernelScore.lean ====
/-
  The kernel program computes the edge scores of `Cert.EdgeScore`, under the precondition.

  With every source and destination index in [-100000, 100000) (the precondition, decoded), the two takes
  before the region return the gathered rows (the fill is never chosen), the weight windows stage the
  halves of the first weight, the two biases and the second weight's column laid out as the body wants
  them, and the region leaves the [160000, 1] column of scores in its output array. The one operation after
  the region reshapes that column to the [160000] result: entry `e` of the result is row `e` of the column.
-/
import proofs.«402381_j7919919693879_2_alg».proof.Defs
import proofs.«402381_j7919919693879_2_alg».proof.Proof.Gen.KernelIdeal.Frame
import proofs.«402381_j7919919693879_2_alg».proof.Proof.Gen.Pre_finite_inputs
import proofs.«402381_j7919919693879_2_alg».proof.Proof.EdgeScore
import proofs.«402381_j7919919693879_2_alg».proof.Proof.PreRange
import proofs.«402381_j7919919693879_2_alg».proof.Proof.GatheredRows
import proofs.«402381_j7919919693879_2_alg».proof.Proof.Weights
import proofs.«402381_j7919919693879_2_alg».proof.Proof.ScoreColumn
import Idealize.ShloMosaic.Lib.StableHlo.Run
import Idealize.ShloMosaic.Lib.Pipeline.Value
import Idealize.ShloMosaic.Lib.ValueIdx

noncomputable section

namespace Cert.KernelIdeal.Score

open Cert.KernelIdeal Cert.KernelIdeal.Gen Idealize.ShloMosaic Idealize.ShloMosaic.TcCoe Idealize.SL.Sem
  Idealize.ShloMosaic.StableHlo Idealize.ShloMosaic.ValueIdx Cert.EdgeScore

variable (m : (ℓ : Loc nD τ sig) → Buf (Elt Ideal) ℓ) (ρ : Dev nD → PrngReg)

/-- The scores of all edges, of the arguments as launched on core `c`. -/
def result (c : Dev nD) : (⟨1, ![160000]⟩ : Shape).Idx → EReal :=
  scores (Rows.rows (F := Ideal) (m ((c : Thread nD τ).loc main_arg0)) (m ((c : Thread nD τ).loc main_arg1)))
    (Rows.rows (F := Ideal) (m ((c : Thread nD τ).loc main_arg0)) (m ((c : Thread nD τ).loc main_arg2)))
    (m ((c : Thread nD τ).loc main_arg3)) (m ((c : Thread nD τ).loc main_arg4))
    (m ((c : Thread nD τ).loc main_arg5)) (m ((c : Thread nD τ).loc main_arg6))

/-- The region's output array ends as the column of scores. -/
theorem column (hpre : Cert.Pre_KernelIdeal m) (c : Dev nD) :
    (dats m 0 c).arrAt 7 cfg0.N
      = scoreColumn (Rows.rows (F := Ideal) (m ((c : Thread nD τ).loc main_arg0)) (m ((c : Thread nD τ).loc main_arg1)))
          (Rows.rows (F := Ideal) (m ((c : Thread nD τ).loc main_arg0)) (m ((c : Thread nD τ).loc main_arg2)))
          (m ((c : Thread nD τ).loc main_arg3)) (m ((c : Thread nD τ).loc main_arg4))
          (m ((c : Thread nD τ).loc main_arg5)) (m ((c : Thread nD τ).loc main_arg6)) := by
  obtain ⟨hs, hd⟩ := Cert.PreRange.range_of_pre _ _ _ _ _ _ _ (hpre c)
  refine ScoreColumn.final m _ _ _ _ _ _ c ?_ ?_ ?_ ?_ ?_ ?_ ?_
  · rw [Rows.V_main_v0]; exact Rows.taken_eq_rows _ _ hs
  · rw [Rows.V_main_v1]; exact Rows.taken_eq_rows _ _ hd
  · intro k j; rw [Weights.V_main_v2]; exact Weights.upperHalf_apply _ k j
  · intro k j; rw [Weights.V_main_v3]; exact Weights.lowerHalf_apply _ k j
  · intro j; rw [Weights.V_main_v6]; exact Weights.biasRow_apply _ j
  · intro j; rw [Weights.V_main_v5]; exact Weights.weightRow_apply _ j
  · rw [Weights.V_main_v7]; exact Weights.biasEntry_apply _

/-- After the reshape that follows the region, the result buffer holds the scores. -/
theorem tail_eq (hpre : Cert.Pre_KernelIdeal m) (c : Dev nD) :
    Pipeline.afterTail₀ cfgs (dats m) 0 (V0 m) [hostOps1] c main_v9 = result m c := by
  unfold Pipeline.afterTail₀
  show StableHlo.after hostOps1 _ (Proc.devRef .tc main_v9) = _
  after_results
  have e : Pipeline.withArrays (cfgs 0).spec c (V0 m c) (fun w => (dats m 0 c).arrAt w (cfgs 0).N)
      (Proc.tc.devRef main_v8) = (dats m 0 c).arrAt 7 cfg0.N :=
    Pipeline.withArrays_arr (Val := Elt Ideal) spec0 launch0.win.arr_inj c (V0 m c)
      (fun w => (dats m 0 c).arrAt w cfg0.N) 7
  funext i
  obtain ⟨e', rfl⟩ : ∃ e' : Fin 160000, i = ix1 e' := ⟨i 0, eq_ix1 i⟩
  show shapeCast S160000 (Pipeline.withArrays (cfgs 0).spec c (V0 m c) (fun w => (dats m 0 c).arrAt w (cfgs 0).N)
      (Proc.tc.devRef main_v8)) shapeCasts_S160000x1_S160000 (ix1 e') = _
  rw [shapeCast_apply _ shapeCasts_S160000x1_S160000 (ix1 e') (ix2 e' (0 : Fin 1)) (by
    rw [Shape.rowMajor_val_two, Shape.rowMajor_val_one]
    show e'.val * 1 + 0 = e'.val
    omega)]
  exact congrFun (e.trans (column m hpre c)) (ix2 e' (0 : Fin 1))

/-- The kernel program's run with its result named: every weakly fair execution ends with the result buffer at
    the scores and the seven arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (tail_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Score

end
-- ==== Proof.lean ====
/-
  Edge scores of a two-layer perceptron on concatenated endpoint features: the kernel program against its
  reference, over the extended reals.

  Both programs take a table of 100000 node rows of 512 features, 160000 source and destination indices,
  a [1024, 512] first weight with its bias and a [512, 1] second weight with its bias, and return one score
  per edge: score e = (sum over j of max (hidden e j) 0 * W2 (j, 0)) + b2 0, where hidden e j is the product
  of the concatenated row [row (src e), row (dst e)] with column j of the first weight, plus b1 j.
  The reference forms the concatenated row and multiplies by the whole weight. The kernel keeps the two rows
  apart and multiplies the source row by the weight's upper 512 rows and the destination row by its lower
  512 rows, 1280 edges per grid point, and replaces the product with the one-column second weight by a
  product with that column laid out as a row followed by a sum along the row. The two agree because a sum
  over the 1024 rows of the weight is the sum over the upper half plus the sum over the lower half
  (`Cert.EdgeScore.sum_halves`); nothing else is rearranged, so no finiteness of the float inputs is used.
  The kernel's take fills a row whose index is out of range after wrapping, where the reference's gather
  clamps the index: the precondition bounds the indices to [-100000, 100000), the range on which indexing the
  table is defined, and there the fill is never chosen (`Cert.KernelIdeal.Rows.taken_eq_rows`), so both
  programs gather the same rows. The frames of the two kernel programs are the generated ones; the
  reference's frame is its generated run with the result dropped; the ideal pass rewrote nothing, so the
  preservation conjunct is trivial.
-/
import proofs.«402381_j7919919693879_2_alg».proof.Defs
import proofs.«402381_j7919919693879_2_alg».proof.Proof.Gen.Kernel
import proofs.«402381_j7919919693879_2_alg».proof.Proof.Gen.Kernel.Frame
import proofs.«402381_j7919919693879_2_alg».proof.Proof.Gen.KernelIdeal
import proofs.«402381_j7919919693879_2_alg».proof.Proof.Gen.KernelIdeal.Frame
import proofs.«402381_j7919919693879_2_alg».proof.Proof.Gen.ReferenceIdeal
import proofs.«402381_j7919919693879_2_alg».proof.Proof.Gen.ReferenceIdeal.Run
import proofs.«402381_j7919919693879_2_alg».proof.Proof.Gen.ReferenceIdeal.Read
import proofs.«402381_j7919919693879_2_alg».proof.Proof.Gen.Pre_finite_inputs
import proofs.«402381_j7919919693879_2_alg».proof.Proof.ReferenceScore
import proofs.«402381_j7919919693879_2_alg».proof.Proof.KernelScore

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the scores of the rows gathered at the wrapped indices. -/
theorem algebraic : Cert.algebraic_KernelIdeal_ReferenceIdeal := by
  intro m ρ m' ρ' hpre hagree
  refine ⟨fun c => Cert.KernelIdeal.Score.result m c, Cert.KernelIdeal.Score.run m ρ hpre, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v24_eq _ _ _ _ _ _ _).trans
    ((Cert.ReferenceIdeal.Score.result_eq _ _ _ _ _ _ _).trans rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
